-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S4000000x2 : Shape := ⟨2, ![4000000, 2]⟩
abbrev S64x64 : Shape := ⟨2, ![64, 64]⟩
abbrev S64 : Shape := ⟨1, ![64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S500000x64 .f32) (main_arg1 : IVec S4000000x2 32) (main_arg2 : FVec F S64x64 .f32) (main_arg3 : FVec F S64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S500000x64 : Shape := ⟨2, ![500000, 64]⟩
abbrev S4000000x2 : Shape := ⟨2, ![4000000, 2]⟩
abbrev S64x64 : Shape := ⟨2, ![64, 64]⟩
abbrev S64 : Shape := ⟨1, ![64]⟩
abbrev S4000000x1 : Shape := ⟨2, ![4000000, 1]⟩
abbrev S4000000 : Shape := ⟨1, ![4000000]⟩
abbrev S_ : Shape := ⟨0, ![]⟩
abbrev S1 : Shape := ⟨1, ![1]⟩
abbrev S1x1 : Shape := ⟨2, ![1, 1]⟩
abbrev S4000000x64 : Shape := ⟨2, ![4000000, 64]⟩
abbrev S1x64 : Shape := ⟨2, ![1, 64]⟩
abbrev S20000x64 : Shape := ⟨2, ![20000, 64]⟩

abbrev nBuf : Space → Nat
  | .hbm => 37
  | .vmem => 6
  | .smem => 0
  | _ => 0

abbrev bufTy : (tb : Table) → Fin (tcTables nBuf tb) → BufTy
  | .hbm, ⟨0, _⟩ => ⟨S500000x64, .f32⟩
  | .hbm, ⟨1, _⟩ => ⟨S4000000x2, .i32⟩
  | .hbm, ⟨2, _⟩ => ⟨S64x64, .f32⟩
  | .hbm, ⟨3, _⟩ => ⟨S64, .f32⟩
  | .hbm, ⟨4, _⟩ => ⟨S4000000x1, .i32⟩
  | .hbm, ⟨5, _⟩ => ⟨S4000000, .i32⟩
  | .hbm, ⟨6, _⟩ => ⟨S_, .i32⟩
  | .hbm, ⟨7, _⟩ => ⟨S4000000, .i32⟩
  | .hbm, ⟨8, _⟩ => ⟨S4000000, .i1⟩
  | .hbm, ⟨9, _⟩ => ⟨S_, .i32⟩
  | .hbm, ⟨10, _⟩ => ⟨S4000000, .i32⟩
  | .hbm, ⟨11, _⟩ => ⟨S4000000, .i32⟩
  | .hbm, ⟨12, _⟩ => ⟨S4000000, .i32⟩
  | .hbm, ⟨13, _⟩ => ⟨S4000000x1, .i32⟩
  | .hbm, ⟨14, _⟩ => ⟨S1, .i32⟩
  | .hbm, ⟨15, _⟩ => ⟨S_, .i32⟩
  | .hbm, ⟨16, _⟩ => ⟨S4000000x1, .i32⟩
  | .hbm, ⟨17, _⟩ => ⟨S4000000x1, .i1⟩
  | .hbm, ⟨18, _⟩ => ⟨S1x1, .i32⟩
  | .hbm, ⟨19, _⟩ => ⟨S4000000x1, .i32⟩
  | .hbm, ⟨20, _⟩ => ⟨S4000000x1, .i1⟩
  | .hbm, ⟨21, _⟩ => ⟨S4000000x1, .i1⟩
  | .hbm, ⟨22, _⟩ => ⟨S_, .i1⟩
  | .hbm, ⟨23, _⟩ => ⟨S4000000, .i1⟩
  | .hbm, ⟨24, _⟩ => ⟨S4000000x64, .f32⟩
  | .hbm, ⟨25, _⟩ => ⟨S4000000x64, .i1⟩
  | .hbm, ⟨26, _⟩ => ⟨S_, .f32⟩
  | .hbm, ⟨27, _⟩ => ⟨S4000000x64, .f32⟩
  | .hbm, ⟨28, _⟩ => ⟨S4000000x64, .f32⟩
  | .hbm, ⟨29, _⟩ => ⟨S4000000x1, .i32⟩
  | .hbm, ⟨30, _⟩ => ⟨S4000000, .i32⟩
  | .hbm, ⟨31, _⟩ => ⟨S_, .f32⟩
  | .hbm, ⟨32, _⟩ => ⟨S500000x64, .f32⟩
  | .hbm, ⟨33, _⟩ => ⟨S4000000x1, .i32⟩
  | .hbm, ⟨34, _⟩ => ⟨S500000x64, .f32⟩
  | .hbm, ⟨35, _⟩ => ⟨S1x64, .f32⟩
  | .hbm, ⟨36, _⟩ => ⟨S500000x64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4000000x2_S4000000x1_0_1 : S4000000x2.Slices ![0, 1] S4000000x1
  shapeCasts_S4000000x1_S4000000 : S4000000x1.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x64_0 : S4000000.BroadcastsInDim S4000000x64 (![0] : Fin 1 → Fin S4000000x64.rank)
  bcast_S_S4000000x64 : S_.BroadcastsInDim S4000000x64 (![] : Fin 0 → Fin S4000000x64.rank)
  slices_S4000000x2_S4000000x1_0_0 : S4000000x2.Slices ![0, 0] S4000000x1
  bcast_S_S500000x64 : S_.BroadcastsInDim S500000x64 (![] : Fin 0 → Fin S500000x64.rank)
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  gather_S500000x64_S4000000x1_S4000000x64_1_0_n_n_0_1_164_wf : GatherDims.WF S500000x64 S4000000x1 S4000000x64 [1] [0] [] [0] [] 1 ![1, 64]
  scatter_S500000x64_S4000000x1_S4000000x64_1_0_0_1_wf : ScatterDims.WF S500000x64 S4000000x1 S4000000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S500000x64.size a
  hwx0_0 : ∀ i : grid0.Coords, EltTy.bits .f32 = 32 ∨ (Rect.block (s := S500000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S500000x64.size a
  hwx0_3 : ∀ i : grid0.Coords, EltTy.bits .f32 = 32 ∨ (Rect.block (s := S500000x64) S20000x64.size (cc0_transform_3 i) (hinb0_3 i)).WholeWords (EltTy.packing .f32)

variable [Facts₀]

def gather_S500000x64_S4000000x1_S4000000x64_1_0_n_n_0_1_164 : GatherDims S500000x64 S4000000x1 S4000000x64 where
  offsetDims := [1]
  collapsedSliceDims := [0]
  operandBatchingDims := []
  startIndicesBatchingDims := []
  startIndexMap := [0]
  indexVectorDim := 1
  sliceSizes := ![1, 64]
  wf := gather_S500000x64_S4000000x1_S4000000x64_1_0_n_n_0_1_164_wf
def scatter_S500000x64_S4000000x1_S4000000x64_1_0_0_1 : ScatterDims S500000x64 S4000000x1 S4000000x64 where
  updateWindowDims := [1]
  insertedWindowDims := [0]
  scatterDimsToOperandDims := [0]
  indexVectorDim := 1
  wf := scatter_S500000x64_S4000000x1_S4000000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v7) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x64 : Shape := ⟨2, ![500000, 64]⟩
abbrev S4000000x2 : Shape := ⟨2, ![4000000, 2]⟩
abbrev S64x64 : Shape := ⟨2, ![64, 64]⟩
abbrev S64 : Shape := ⟨1, ![64]⟩
abbrev S4000000x1 : Shape := ⟨2, ![4000000, 1]⟩
abbrev S4000000 : Shape := ⟨1, ![4000000]⟩
abbrev S_ : Shape := ⟨0, ![]⟩
abbrev S1 : Shape := ⟨1, ![1]⟩
abbrev S1x1 : Shape := ⟨2, ![1, 1]⟩
abbrev S4000000x64 : Shape := ⟨2, ![4000000, 64]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S4000000x2, .i32⟩
  | .hbm, ⟨2, _⟩ => ⟨S64x64, .f32⟩
  | .hbm, ⟨3, _⟩ => ⟨S64, .f32⟩
  | .hbm, ⟨4, _⟩ => ⟨S4000000x1, .i32⟩
  | .hbm, ⟨5, _⟩ => ⟨S4000000, .i32⟩
  | .hbm, ⟨6, _⟩ => ⟨S_, .i32⟩
  | .hbm, ⟨7, _⟩ => ⟨S4000000, .i32⟩
  | .hbm, ⟨8, _⟩ => ⟨S4000000, .i1⟩
  | .hbm, ⟨9, _⟩ => ⟨S_, .i32⟩
  | .hbm, ⟨10, _⟩ => ⟨S4000000, .i32⟩
  | .hbm, ⟨11, _⟩ => ⟨S4000000, .i32⟩
  | .hbm, ⟨12, _⟩ => ⟨S4000000, .i32⟩
  | .hbm, ⟨13, _⟩ => ⟨S4000000x1, .i32⟩
  | .hbm, ⟨14, _⟩ => ⟨S1, .i32⟩
  | .hbm, ⟨15, _⟩ => ⟨S_, .i32⟩
  | .hbm, ⟨16, _⟩ => ⟨S4000000x1, .i32⟩
  | .hbm, ⟨17, _⟩ => ⟨S4000000x1, .i1⟩
  | .hbm, ⟨18, _⟩ => ⟨S1x1, .i32⟩
  | .hbm, ⟨19, _⟩ => ⟨S4000000x1, .i32⟩
  | .hbm, ⟨20, _⟩ => ⟨S4000000x1, .i1⟩
  | .hbm, ⟨21, _⟩ => ⟨S4000000x1, .i1⟩
  | .hbm, ⟨22, _⟩ => ⟨S_, .i1⟩
  | .hbm, ⟨23, _⟩ => ⟨S4000000, .i1⟩
  | .hbm, ⟨24, _⟩ => ⟨S4000000x64, .f32⟩
  | .hbm, ⟨25, _⟩ => ⟨S4000000x64, .i1⟩
  | .hbm, ⟨26, _⟩ => ⟨S_, .f32⟩
  | .hbm, ⟨27, _⟩ => ⟨S4000000x64, .f32⟩
  | .hbm, ⟨28, _⟩ => ⟨S4000000x64, .f32⟩
  | .hbm, ⟨29, _⟩ => ⟨S4000000x1, .i32⟩
  | .hbm, ⟨30, _⟩ => ⟨S4000000, .i32⟩
  | .hbm, ⟨31, _⟩ => ⟨S_, .f32⟩
  | .hbm, ⟨32, _⟩ => ⟨S500000x64, .f32⟩
  | .hbm, ⟨33, _⟩ => ⟨S4000000x1, .i32⟩
  | .hbm, ⟨34, _⟩ => ⟨S500000x64, .f32⟩
  | .hbm, ⟨35, _⟩ => ⟨S500000x64, .f32⟩
  | .hbm, ⟨36, _⟩ => ⟨S1x64, .f32⟩
  | .hbm, ⟨37, _⟩ => ⟨S500000x64, .f32⟩
  | .hbm, ⟨38, _⟩ => ⟨S500000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  slices_S4000000x2_S4000000x1_0_1 : S4000000x2.Slices ![0, 1] S4000000x1
  shapeCasts_S4000000x1_S4000000 : S4000000x1.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x64_0 : S4000000.BroadcastsInDim S4000000x64 (![0] : Fin 1 → Fin S4000000x64.rank)
  bcast_S_S4000000x64 : S_.BroadcastsInDim S4000000x64 (![] : Fin 0 → Fin S4000000x64.rank)
  slices_S4000000x2_S4000000x1_0_0 : S4000000x2.Slices ![0, 0] S4000000x1
  bcast_S_S500000x64 : S_.BroadcastsInDim S500000x64 (![] : Fin 0 → Fin S500000x64.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  gather_S500000x64_S4000000x1_S4000000x64_1_0_n_n_0_1_164_wf : GatherDims.WF S500000x64 S4000000x1 S4000000x64 [1] [0] [] [0] [] 1 ![1, 64]
  scatter_S500000x64_S4000000x1_S4000000x64_1_0_0_1_wf : ScatterDims.WF S500000x64 S4000000x1 S4000000x64 [1] [0] [0] 1
  dot_S500000x64_S64x64_S500000x64_1_0_0_1_n_n_wf : DotDims.WF S500000x64 S64x64 S500000x64 [1] [0] [0] [1] [] []

variable [Facts₀]

def gather_S500000x64_S4000000x1_S4000000x64_1_0_n_n_0_1_164 : GatherDims S500000x64 S4000000x1 S4000000x64 where
  offsetDims := [1]
  collapsedSliceDims := [0]
  operandBatchingDims := []
  startIndicesBatchingDims := []
  startIndexMap := [0]
  indexVectorDim := 1
  sliceSizes := ![1, 64]
  wf := gather_S500000x64_S4000000x1_S4000000x64_1_0_n_n_0_1_164_wf
def scatter_S500000x64_S4000000x1_S4000000x64_1_0_0_1 : ScatterDims S500000x64 S4000000x1 S4000000x64 where
  updateWindowDims := [1]
  insertedWindowDims := [0]
  scatterDimsToOperandDims := [0]
  indexVectorDim := 1
  wf := scatter_S500000x64_S4000000x1_S4000000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Linear.lean ====
/-
  The dense layer both programs end with, as one function of whole arrays.

  For a table `A` of rows of 64 extended reals, a 64 × 64 matrix `W` and a 64-vector `b`, entry (r, j) of the
  result is  (∑ a : Fin 64, A (r, a) · W (a, j)) + b j  — a matrix product followed by a bias added to every row.
  The number of rows is a parameter: the kernel applies the layer to blocks of 20000 rows, the reference to all
  500000 rows at once, and a block of the whole-array result is the layer applied to that block of rows.
-/
import Idealize.ShloMosaic.Lib.ValueIdx
import Idealize.ShloMosaic.PureOps.Ideal

noncomputable section

namespace Cert.Linear

open Idealize.ShloMosaic Idealize.ShloMosaic.ValueIdx

/-- The layer on `M` rows: row `r` of `A` times `W`, plus `b`, column by column. -/
def dense {M : Nat} (A : (⟨2, ![M, 64]⟩ : Shape).Idx → EReal) (W : (⟨2, ![64, 64]⟩ : Shape).Idx → EReal)
    (b : (⟨1, ![64]⟩ : Shape).Idx → EReal) : (⟨2, ![M, 64]⟩ : Shape).Idx → EReal :=
  fun i => (∑ a : Fin 64, A (ix2 (i 0) a) * W (ix2 a (i 1))) + b (ix1 (i 1))

/-- Read at explicit coordinates. -/
theorem dense_ix2 {M : Nat} (A : (⟨2, ![M, 64]⟩ : Shape).Idx → EReal) (W : (⟨2, ![64, 64]⟩ : Shape).Idx → EReal)
    (b : (⟨1, ![64]⟩ : Shape).Idx → EReal) (r : Fin M) (j : Fin 64) :
    dense A W b (ix2 r j) = (∑ a : Fin 64, A (ix2 r a) * W (ix2 a j)) + b (ix1 j) := rfl

end Cert.Linear

end
-- ==== Proof.Aggregate.lean ====
/-
  The aggregation both programs perform before their dense layer, as one function of the feature table and the
  edge list.

  Each of the 4000000 edges is a pair (target, source). An edge reads row `source` of the 500000 × 64 table — a
  negative index counting from the end, an index that is still no row giving the fill word instead of a row — and
  the rows read are summed, edge by edge, into row `target` of an array that starts at zero. Nothing is computed
  here: the operations are named and composed, so that the two programs' arrays can be recognised as the same term.
-/
import proofs.«150528_j48627619726064_1_alg».proof.KernelIdeal

noncomputable section

namespace Cert.KernelIdeal.Agg

open Cert.KernelIdeal Idealize.ShloMosaic
open Cert.KernelIdeal.Facts₀ Cert.KernelIdeal.Facts

variable {F : FTy → Type} [FloatOps F] [Cert.KernelIdeal.Facts]

/-- Column 1 of the edge list: the table row each edge reads. -/
def sources (nb : (⟨S4000000x2, .i32⟩ : BufTy).Contents (Elt F)) : (⟨S4000000, .i32⟩ : BufTy).Contents (Elt F) :=
  shapeCast S4000000 (extractStridedSlice S4000000x1 ![0, 1] nb slices_S4000000x2_S4000000x1_0_1) shapeCasts_S4000000x1_S4000000

/-- Column 0 of the edge list: the row of the result each edge adds to. -/
def targets (nb : (⟨S4000000x2, .i32⟩ : BufTy).Contents (Elt F)) : (⟨S4000000, .i32⟩ : BufTy).Contents (Elt F) :=
  shapeCast S4000000 (extractStridedSlice S4000000x1 ![0, 0] nb slices_S4000000x2_S4000000x1_0_0) shapeCasts_S4000000x1_S4000000

/-- The source indices with a negative one counted from the end of the table (500000 added), as a column. -/
def wrapped (nb : (⟨S4000000x2, .i32⟩ : BufTy).Contents (Elt F)) : (⟨S4000000x1, .i32⟩ : BufTy).Contents (Elt F) :=
  broadcastInDim S4000000x1 ![0] bcast_S4000000_S4000000x1_0
    (select (cmpi .slt (sources (F := F) nb) (broadcastInDim S4000000 ![] bcast_S_S4000000 (constantI S_ 32 0#32)))
      (addi (sources (F := F) nb) (broadcastInDim S4000000 ![] bcast_S_S4000000 (constantI S_ 32 500000#32)))
      (sources (F := F) nb))

/-- Whether a wrapped index is a row of the table: between 0 and 499999. -/
def inTable (nb : (⟨S4000000x2, .i32⟩ : BufTy).Contents (Elt F)) : (⟨S4000000, .i1⟩ : BufTy).Contents (Elt F) :=
  Host.reduce IntOp.andi
    (andi (cmpi .sge (wrapped (F := F) nb) (broadcastInDim S4000000x1 ![] bcast_S_S4000000x1 (constantI S_ 32 0#32)))
      (cmpi .sle (wrapped (F := F) nb)
        (broadcastInDim S4000000x1 ![0, 1] bcast_S1x1_S4000000x1_0_1 (broadcastInDim S1x1 ![1] bcast_S1_S1x1_1 (constantI S1 32 499999#32)))))
    (constantI S_ 1 1#1) reducesTo_S4000000x1_S4000000_d1 h_S_

/-- The rows read, one per edge: the table's row at the wrapped index where that is a row, the fill word elsewhere. -/
def gathered (x : (⟨S500000x64, .f32⟩ : BufTy).Contents (Elt F)) (nb : (⟨S4000000x2, .i32⟩ : BufTy).Contents (Elt F)) :
    (⟨S4000000x64, .f32⟩ : BufTy).Contents (Elt F) :=
  select (broadcastInDim S4000000x64 ![0] bcast_S4000000_S4000000x64_0 (inTable (F := F) nb))
    (Host.gather gather_S500000x64_S4000000x1_S4000000x64_1_0_n_n_0_1_164 x (wrapped (F := F) nb))
    (broadcastInDim S4000000x64 ![] bcast_S_S4000000x64 (constant S_ .f32 0x7FC00000#32))

/-- The aggregate: starting from zero, every edge's row added into the row its target names. -/
def agg (x : (⟨S500000x64, .f32⟩ : BufTy).Contents (Elt F)) (nb : (⟨S4000000x2, .i32⟩ : BufTy).Contents (Elt F)) :
    (⟨S500000x64, .f32⟩ : BufTy).Contents (Elt F) :=
  Host.scatterAdd scatter_S500000x64_S4000000x1_S4000000x64_1_0_0_1
    (broadcastInDim S500000x64 ![] bcast_S_S500000x64 (constant S_ .f32 0x00000000#32))
    (broadcastInDim S4000000x1 ![0] bcast_S4000000_S4000000x1_0 (targets (F := F) nb))
    (gathered x nb)

end Cert.KernelIdeal.Agg

end
-- ==== Proof.LinearKernel.lean ====
/-
  What the kernel's result array holds at the ideal instance.

  The kernel walks 25 blocks of 20000 rows of the aggregate. On a block `x` it forms  x · W + b : the matrix product
  into a zero accumulator (the change of the operands' format to bf16 is the identity on extended reals) plus the
  bias row broadcast down the block. Entry (p, q) of that is  (∑ a, x (p, a) · W (a, q)) + b q , which is the dense
  layer on 20000 rows; a block of the dense layer on all 500000 rows is the dense layer on that block of rows, the
  25 blocks tile the array, and so the array ends holding the dense layer of the whole aggregate.
-/
import proofs.«150528_j48627619726064_1_alg».proof.Proof.Gen.KernelIdeal.Value
import proofs.«150528_j48627619726064_1_alg».proof.Proof.LibDot2
import proofs.«150528_j48627619726064_1_alg».proof.Proof.Linear
import proofs.«150528_j48627619726064_1_alg».proof.Proof.Aggregate
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.LinearValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Linear

/-! ## The product's dimension numbers, coordinate by coordinate -/

theorem lhs_0 (j : S20000x64.Idx) (k : dot_S20000x64_S64x64_S20000x64_1_0_0_1_n_n.contr.Idx) :
    (dot_S20000x64_S64x64_S20000x64_1_0_0_1_n_n.lhsIdx j k 0 : ℕ) = j 0 := by
  simp [DotDims.lhsIdx, dot_S20000x64_S64x64_S20000x64_1_0_0_1_n_n]; rfl
theorem lhs_1 (j : S20000x64.Idx) (k : dot_S20000x64_S64x64_S20000x64_1_0_0_1_n_n.contr.Idx) :
    (dot_S20000x64_S64x64_S20000x64_1_0_0_1_n_n.lhsIdx j k 1 : ℕ) = k ⟨0, by decide⟩ := by
  simp [DotDims.lhsIdx, dot_S20000x64_S64x64_S20000x64_1_0_0_1_n_n]; rfl
theorem rhs_0 (j : S20000x64.Idx) (k : dot_S20000x64_S64x64_S20000x64_1_0_0_1_n_n.contr.Idx) :
    (dot_S20000x64_S64x64_S20000x64_1_0_0_1_n_n.rhsIdx j k 0 : ℕ) = k ⟨0, by decide⟩ := by
  simp [DotDims.rhsIdx, dot_S20000x64_S64x64_S20000x64_1_0_0_1_n_n]; rfl
theorem rhs_1 (j : S20000x64.Idx) (k : dot_S20000x64_S64x64_S20000x64_1_0_0_1_n_n.contr.Idx) :
    (dot_S20000x64_S64x64_S20000x64_1_0_0_1_n_n.rhsIdx j k 1 : ℕ) = j 1 := by
  simp [DotDims.rhsIdx, dot_S20000x64_S64x64_S20000x64_1_0_0_1_n_n]; rfl

/-! ## The body's value on a block -/

/-- The bias row broadcast down a block reads the row's entry in the column. -/
theorem biasRow_apply (x2 : Vec Ideal S1x64 .f32) (p : Fin 20000) (q : Fin 64) :
    broadcastTo S20000x64 x2 broadcasts_S1x64_S20000x64 (ix2 p q) = x2 (ix2 (0 : Fin 1) q) :=
  broadcastTo_apply x2 broadcasts_S1x64_S20000x64 (ix2 p q) (ix2 (0 : Fin 1) q) (fun a => by
    match a with
    | ⟨0, _⟩ => rfl
    | ⟨1, _⟩ => rfl)

/-- Entry (p, q) of what the body stores:  (∑ a, x (p, a) · W (a, q)) + b (0, q). -/
theorem payload_ix2 (x0 : Vec Ideal S20000x64 .f32) (x1 : Vec Ideal S64x64 .f32) (x2 : Vec Ideal S1x64 .f32)
    (p : Fin 20000) (q : Fin 64) :
    k0_pay1 (F := Ideal) x0 x1 x2 (ix2 p q) = (∑ a : Fin 64, x0 (ix2 p a) * x1 (ix2 a q)) + x2 (ix2 (0 : Fin 1) q) := by
  unfold k0_pay1
  rw [addf_apply, shapeCast_self, shapeCast_self, biasRow_apply]
  rw [Cert.Lib.Dot2.matmul_zero_ix2 dot_S20000x64_S64x64_S20000x64_1_0_0_1_n_n none rfl rfl
    (fun i k => lhs_0 i k) (fun i k => lhs_1 i k) (fun i k => rhs_0 i k) (fun i k => rhs_1 i k)]
  rfl

/-- A block's value at an entry, against the dense layer of whole arrays at the array index the entry lands on: the
    block's rows are rows of `A`, the weights' and the bias' blocks are the whole arrays, the column is kept. -/
theorem block_value (A : S500000x64.Idx → EReal) (W : S64x64.Idx → EReal) (B : S1x64.Idx → EReal)
    (x0 : S20000x64.Idx → EReal) (x1 : S64x64.Idx → EReal) (x2 : S1x64.Idx → EReal)
    (j : S20000x64.Idx) (i : S500000x64.Idx)
    (hcol : (i 1).val = (j 1).val)
    (hrow : ∀ a : Fin 64, x0 (ix2 (j 0) a) = A (ix2 (i 0) a))
    (hw : x1 = W) (hb : x2 = B) :
    k0_pay1 (F := Ideal) x0 x1 x2 j = dense (M := 500000) A W (fun u => B (ix2 (0 : Fin 1) (u 0))) i := by
  obtain ⟨p, q, rfl⟩ : ∃ (p : Fin 20000) (q : Fin 64), j = ix2 p q := ⟨j 0, j 1, eq_ix2 j⟩
  obtain ⟨r, s, rfl⟩ : ∃ (r : Fin 500000) (s : Fin 64), i = ix2 r s := ⟨i 0, i 1, eq_ix2 i⟩
  have hs : s = q := Fin.ext hcol
  subst hs hw hb
  rw [payload_ix2, dense_ix2]
  exact congrArg (· + x2 (ix2 (0 : Fin 1) s)) (Finset.sum_congr rfl fun a _ => by rw [hrow a])

/-! ## From blocks to the array -/

theorem zeroOffsets : (![0, 0] : Fin 2 → Nat) = fun _ => 0 := funext fun a => by fin_cases a <;> rfl

/-- The printed index maps over the 25 grid points: the aggregate's block and the result's block are block `t` of the
    rows, the weights' and the bias' block is the whole array. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- On ANY arrays: what the body computes from point `t`'s blocks of them is block `t` of their dense layer. The
    aggregate's block is rows 20000·t … 20000·t + 19999, the weights' and the bias' blocks are the arrays themselves,
    and the result's block is those same rows. -/
theorem block_of_dense (A : S500000x64.Idx → EReal) (W : S64x64.Idx → EReal) (B : S1x64.Idx → EReal) (t : Fin cfg0.N) :
    (cfg0.win 3).cut (grid0.coords t)
        (k0_pay1 (F := Ideal) (((cfg0.win 0).blk t).view.read (Elt Ideal) A) (((cfg0.win 1).blk t).view.read (Elt Ideal) W)
          (((cfg0.win 2).blk t).view.read (Elt Ideal) B))
      = ((cfg0.win 3).blk t).view.read (Elt Ideal) (dense (M := 500000) A W (fun u => B (ix2 (0 : Fin 1) (u 0)))) := by
  obtain ⟨e00, e01, e10, e11, e20, e21, e30, e31⟩ := blockIndex t
  funext j
  rw [View.read_apply]
  refine Eq.trans ?_ (cast_eq _ _).symm
  show k0_pay1 (F := Ideal) (((cfg0.win 0).blk t).view.read (Elt Ideal) A) (((cfg0.win 1).blk t).view.read (Elt Ideal) W)
    (((cfg0.win 2).blk t).view.read (Elt Ideal) B) j = _
  refine block_value A W B (((cfg0.win 0).blk t).view.read (Elt Ideal) A) (((cfg0.win 1).blk t).view.read (Elt Ideal) W)
    (((cfg0.win 2).blk t).view.read (Elt Ideal) B) j (((cfg0.win 3).blk t).view.emb j) ?_ ?_ ?_ ?_
  · show win0_3.index t (1 : Fin 2) * 64 + 1 * (j 1).val = (j 1).val
    omega
  · intro a
    rw [View.read_apply]
    refine (cast_eq _ _).trans (congrArg A (funext fun d => Fin.ext ?_))
    match d with
    | ⟨0, _⟩ => show win0_0.index t (0 : Fin 2) * 20000 + 1 * (j 0).val = win0_3.index t (0 : Fin 2) * 20000 + 1 * (j 0).val; omega
    | ⟨1, _⟩ => show win0_0.index t (1 : Fin 2) * 64 + 1 * a.val = a.val; omega
  · funext y
    rw [View.read_apply]
    refine (cast_eq _ _).trans (congrArg W (funext fun d => Fin.ext ?_))
    match d with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    rw [View.read_apply]
    refine (cast_eq _ _).trans (congrArg B (funext fun d => Fin.ext ?_))
    match d with
    | ⟨0, _⟩ => show win0_2.index t (0 : Fin 2) * 1 + 1 * (y 0).val = (y 0).val; omega
    | ⟨1, _⟩ => show win0_2.index t (1 : Fin 2) * 64 + 1 * (y 1).val = (y 1).val; omega

variable (m : (ℓ : Loc nD τ sig) → Buf (Elt Ideal) ℓ) (ρ : Dev nD → PrngReg)

/-- The dense layer of the three arrays the region stages, as it finds them: what the result array will hold. -/
abbrev wholeOut (c : Dev nD) : S500000x64.Idx → EReal :=
  dense (M := 500000) (V m c (Pipeline.arrRef spec0 0) : S500000x64.Idx → EReal) (V m c (Pipeline.arrRef spec0 1) : S64x64.Idx → EReal)
    (fun u => (V m c (Pipeline.arrRef spec0 2) : S1x64.Idx → EReal) (ix2 (0 : Fin 1) (u 0)))

/-- What grid point `t` writes back is block `t` of that array. -/
theorem flushed_eq (c : Dev nD) (t : Fin cfg0.N) :
    (dats m 0 c).flushed 3 t = ((cfg0.win 3).blk t).view.read (Elt Ideal) (wholeOut m c) := by
  rw [flushed3]
  unfold out0_3
  rw [View.canon_unit_zero zeroOffsets]
  simp only [View.ld_unit_zero (S := S20000x64) zeroOffsets, View.ld_unit_zero (S := S64x64) zeroOffsets,
    View.ld_unit_zero (S := S1x64) zeroOffsets]
  unfold iblk wholeOut
  generalize V m c (Pipeline.arrRef spec0 0) = A
  generalize V m c (Pipeline.arrRef spec0 1) = W
  generalize V m c (Pipeline.arrRef spec0 2) = B
  exact block_of_dense A W B t

/-- An index of the array is in point `t`'s block iff each coordinate is in the block's range on its axis. -/
theorem mem_blk (t : Fin cfg0.N) (i : S500000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v9).slice (win0_3.rect t)).set ↔ _
  rw [View.set_slice_whole, Rect.mem_set_unit]
  exact Iff.rfl

/-- Every row is in one of the 25 blocks: row `r` in block `r / 20000`. -/
theorem cover (i : S500000x64.Idx) : ∃ t : Fin cfg0.N, (cfg0.win 3).flush t = true ∧ i ∈ ((cfg0.win 3).blk t).view.set := by
  have hi0 : (i 0).val < 500000 := (i 0).isLt
  have hi1 : (i 1).val < 64 := (i 1).isLt
  have hN : cfg0.N = 25 := N_0
  let t : Fin cfg0.N := ⟨(i 0).val / 20000, by rw [hN]; omega⟩
  obtain ⟨-, -, -, -, -, -, e30, e31⟩ := blockIndex t
  have ht : t.val = (i 0).val / 20000 := rfl
  refine ⟨t, flush0_3 t, ?_⟩
  rw [mem_blk]
  intro a
  match a with
  | ⟨0, _⟩ => show win0_3.index t (0 : Fin 2) * 20000 ≤ (i 0).val ∧ (i 0).val < win0_3.index t (0 : Fin 2) * 20000 + 20000; omega
  | ⟨1, _⟩ => show win0_3.index t (1 : Fin 2) * 64 ≤ (i 1).val ∧ (i 1).val < win0_3.index t (1 : Fin 2) * 64 + 64; omega

/-- The result array after the run is the dense layer of the arrays the region found. -/
theorem final (c : Dev nD) : (dats m 0 c).arrAt 3 cfg0.N = wholeOut m c :=
  (dats m 0 c).arrAt_eq_of_cover 3 (wholeOut m c) (fun t _ => flushed_eq m c t) cover

end Cert.KernelIdeal.LinearValue

end
-- ==== Proof.KernelRun.lean ====
/-
  The kernel's run at the ideal instance, read as a function of the launched arguments.

  The three arrays the region stages are: the aggregate of the launched table and edge list (the host operations
  before the region, composed), the launched weights, and the launched bias laid out as one row. With the
  blocks-to-array step the result array therefore ends holding the dense layer of that aggregate with the launched
  weights and bias, and the four arguments are as launched.
-/
import proofs.«150528_j48627619726064_1_alg».proof.Proof.LinearKernel

noncomputable section

namespace Cert.KernelIdeal.LinearValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Cert.Linear

variable (m : (ℓ : Loc nD τ sig) → Buf (Elt Ideal) ℓ) (ρ : Dev nD → PrngReg)

attribute [local irreducible] Host.reduce Host.gather Host.scatterAdd in
set_option maxRecDepth 8192 in
set_option maxHeartbeats 1000000 in
/-- The array the first window stages is the aggregate of the launched table and edge list. -/
theorem aggregate_eq (c : Dev nD) :
    (V m c main_v7 : S500000x64.Idx → EReal)
      = Agg.agg (F := Ideal) (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  simp only [TRef.toBuf, TRef.ofBuf]
  repeat rw [cast_eq]
  unfold Agg.agg Agg.gathered Agg.inTable Agg.wrapped Agg.targets Agg.sources
  rfl

/-- The array the third window stages is the launched bias as one row of 64. -/
theorem biasArray_eq (c : Dev nD) :
    (V m c main_v8 : S1x64.Idx → EReal) = shapeCast S1x64 (m ((c : Thread nD τ).loc main_arg3)) shapeCasts_S64_S1x64 := by
  dsimp only [Gen.V]
  simp only [Gen.hostOps0, Gen.hostOps0_1, Gen.hostOps0_2, List.flatten_cons, List.flatten_nil, List.append_nil,
    List.cons_append, List.nil_append]
  after_results
  rfl

/-- Entry (0, q) of that row is entry q of the bias. -/
theorem biasArray_apply (c : Dev nD) (u : S64.Idx) :
    (V m c main_v8 : S1x64.Idx → EReal) (ix2 (0 : Fin 1) (u 0)) = m ((c : Thread nD τ).loc main_arg3) u := by
  rw [biasArray_eq]
  refine shapeCast_apply _ _ (ix2 (0 : Fin 1) (u 0)) u ?_
  rw [Shape.rowMajor_val_one, Shape.rowMajor_val_two]
  show (u 0).val = (0 : Fin 1).val * 64 + (u 0).val
  simp

/-- The dense layer of the staged arrays is the dense layer of the launched arguments' aggregate. -/
theorem wholeOut_eq (c : Dev nD) :
    wholeOut m c = dense (M := 500000) (Agg.agg (F := Ideal) (m ((c : Thread nD τ).loc main_arg0)) (m ((c : Thread nD τ).loc main_arg1)))
      (m ((c : Thread nD τ).loc main_arg2)) (m ((c : Thread nD τ).loc main_arg3)) := by
  have h0 : (V m c (Pipeline.arrRef spec0 0) : S500000x64.Idx → EReal)
      = Agg.agg (F := Ideal) (m ((c : Thread nD τ).loc main_arg0)) (m ((c : Thread nD τ).loc main_arg1)) := aggregate_eq m c
  have h1 : (V m c (Pipeline.arrRef spec0 1) : S64x64.Idx → EReal) = m ((c : Thread nD τ).loc main_arg2) := V_main_arg2 m c
  have h2 : (fun u : S64.Idx => (V m c (Pipeline.arrRef spec0 2) : S1x64.Idx → EReal) (ix2 (0 : Fin 1) (u 0)))
      = m ((c : Thread nD τ).loc main_arg3) := funext fun u => biasArray_apply m c u
  show dense (M := 500000) (V m c (Pipeline.arrRef spec0 0) : S500000x64.Idx → EReal) (V m c (Pipeline.arrRef spec0 1) : S64x64.Idx → EReal)
    (fun u : S64.Idx => (V m c (Pipeline.arrRef spec0 2) : S1x64.Idx → EReal) (ix2 (0 : Fin 1) (u 0))) = _
  rw [h0, h1, h2]

/-- Every weakly fair execution of the idealized kernel program ends with the result array at the dense layer of the
    launched arguments' aggregate, the arguments unchanged. -/
theorem run : θ_run defs (onTc (τ := τ) (main (F := Ideal))) ⟨m, fun _ => 0, ρ⟩ fun r => ∀ c : Dev nD,
      r.2.mem ((c : Thread nD τ).loc main_v9)
        = dense (M := 500000) (Agg.agg (F := Ideal) (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (wholeOut_eq m c)), (h c).2⟩)
    (run_blocks m ρ)

end Cert.KernelIdeal.LinearValue

end
-- ==== Proof.ReferenceRun.lean ====
/-
  The reference's @main read as a straight line of host operations, and what it leaves in its result.

  @main slices the two columns of the edge list, reads the table's rows through the outlined take (whose own
  outlined select is written in place), sums the rows into their target rows, multiplies the aggregate by the
  weight matrix and adds the bias broadcast to every row. The functions' bodies are unfolded at their calls, so
  the program is one list of operations; run in order from the launch contents, the result buffer ends holding
      aggregate · W  +  bias (broadcast over the rows),
  the aggregate being the named composition of gather and scatter-add of the table and the edge list, and the four
  arguments end as they were launched.
-/
import proofs.«150528_j48627619726064_1_alg».proof.Proof.Gen.ReferenceIdeal
import proofs.«150528_j48627619726064_1_alg».proof.Proof.Gen.KernelIdeal
import proofs.«150528_j48627619726064_1_alg».proof.Proof.Aggregate
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's 35 operations in order, the take's and its select's written where they are called. -/
abbrev ops : List (HloOp τ sig (Elt F)) :=
  [ unary main_arg1 main_v0 ((extractStridedSlice S4000000x1 ![0, 1] · slices_S4000000x2_S4000000x1_0_1) : (⟨S4000000x2, .i32⟩ : BufTy).Contents (Elt F) → (⟨S4000000x1, .i32⟩ : BufTy).Contents (Elt F)),
    reshape main_v0 main_v1 rfl shapeCasts_S4000000x1_S4000000,
    TRef.nullary main_call0.c (constantI S_ 32 0#32),
    TRef.unary main_call0.c main_call0.v0 (broadcastInDim S4000000 ![] bcast_S_S4000000),
    TRef.binary (.of main_v1) main_call0.v0 main_call0.v1 (cmpi .slt),
    TRef.nullary main_call0.c_0 (constantI S_ 32 500000#32),
    TRef.unary main_call0.c_0 main_call0.v2 (broadcastInDim S4000000 ![] bcast_S_S4000000),
    TRef.binary (.of main_v1) main_call0.v2 main_call0.v3 addi,
    TRef.ternary main_call0.v1 main_call0.v3 (.of main_v1) main_call0.call0.v0 select,
    TRef.unary main_call0.call0.v0 main_call0.v5 (broadcastInDim S4000000x1 ![0] bcast_S4000000_S4000000x1_0),
    TRef.nullary main_call0.c_1 (constantI S1 32 499999#32),
    TRef.nullary main_call0.c_2 (constantI S_ 32 0#32),
    TRef.unary main_call0.c_2 main_call0.v6 (broadcastInDim S4000000x1 ![] bcast_S_S4000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4000000x1 ![0, 1] bcast_S1x1_S4000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4000000x1_S4000000_d1 h_S_),
    TRef.binary (.of main_arg0) main_call0.v5 main_call0.v13 (fun x i => Host.gather gather_S500000x64_S4000000x1_S4000000x64_1_0_n_n_0_1_164 x i),
    TRef.unary main_call0.v12 main_call0.v14 (broadcastInDim S4000000x64 ![0] bcast_S4000000_S4000000x64_0),
    TRef.nullary main_call0.cst (constant S_ .f32 0x7FC00000#32),
    TRef.unary main_call0.cst main_call0.v15 (broadcastInDim S4000000x64 ![] bcast_S_S4000000x64),
    TRef.ternary main_call0.v14 main_call0.v13 main_call0.v15 main_call0.v16 select,
    unary main_arg1 main_v3 ((extractStridedSlice S4000000x1 ![0, 0] · slices_S4000000x2_S4000000x1_0_0) : (⟨S4000000x2, .i32⟩ : BufTy).Contents (Elt F) → (⟨S4000000x1, .i32⟩ : BufTy).Contents (Elt F)),
    reshape main_v3 main_v4 rfl shapeCasts_S4000000x1_S4000000,
    nullary main_cst (constant S_ .f32 0x00000000#32),
    unary main_cst main_v5 (broadcastInDim S500000x64 ![] bcast_S_S500000x64 : (⟨S_, .f32⟩ : BufTy).Contents (Elt F) → (⟨S500000x64, .f32⟩ : BufTy).Contents (Elt F)),
    unary main_v4 main_v6 (broadcastInDim S4000000x1 ![0] bcast_S4000000_S4000000x1_0 : (⟨S4000000, .i32⟩ : BufTy).Contents (Elt F) → (⟨S4000000x1, .i32⟩ : BufTy).Contents (Elt F)),
    ternary main_v5 main_v6 main_v2 main_v7 ((fun x i u => Host.scatterAdd scatter_S500000x64_S4000000x1_S4000000x64_1_0_0_1 x i u) : (⟨S500000x64, .f32⟩ : BufTy).Contents (Elt F) → (⟨S4000000x1, .i32⟩ : BufTy).Contents (Elt F) → (⟨S4000000x64, .f32⟩ : BufTy).Contents (Elt F) → (⟨S500000x64, .f32⟩ : BufTy).Contents (Elt F)),
    binary main_v7 main_arg2 main_v8 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_arg3 main_v9 (broadcastInDim S1x64 ![1] bcast_S64_S1x64_1 : (⟨S64, .f32⟩ : BufTy).Contents (Elt F) → (⟨S1x64, .f32⟩ : BufTy).Contents (Elt F)),
    unary main_v9 main_v10 (broadcastInDim S500000x64 ![0, 1] bcast_S1x64_S500000x64_0_1 : (⟨S1x64, .f32⟩ : BufTy).Contents (Elt F) → (⟨S500000x64, .f32⟩ : BufTy).Contents (Elt F)),
    binary main_v8 main_v10 main_v11 (addf : (⟨S500000x64, .f32⟩ : BufTy).Contents (Elt F) → (⟨S500000x64, .f32⟩ : BufTy).Contents (Elt F) → (⟨S500000x64, .f32⟩ : BufTy).Contents (Elt F)) ]

set_option maxRecDepth 2048 in
/-- @main is that list run in order: the two functions unfolded at their calls, the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., ternary_bufs_sub .., binary_bufs_sub .., unary_bufs_sub .., unary_bufs_sub .., binary_bufs_sub ..⟩

/-- The result as a function of the four arguments: the aggregate times the weights, plus the bias on every row. -/
def out (x : (⟨S500000x64, .f32⟩ : BufTy).Contents (Elt F)) (nb : (⟨S4000000x2, .i32⟩ : BufTy).Contents (Elt F))
    (w : (⟨S64x64, .f32⟩ : BufTy).Contents (Elt F)) (b : (⟨S64, .f32⟩ : BufTy).Contents (Elt F)) :
    (⟨S500000x64, .f32⟩ : BufTy).Contents (Elt F) :=
  addf (Host.dotGeneral dot_S500000x64_S64x64_S500000x64_1_0_0_1_n_n none (Cert.KernelIdeal.Agg.agg (F := F) x nb) w)
    (broadcastInDim S500000x64 ![0, 1] bcast_S1x64_S500000x64_0_1 (broadcastInDim S1x64 ![1] bcast_S64_S1x64_1 b))

attribute [local irreducible] Host.reduce Host.gather Host.scatterAdd in
set_option maxRecDepth 8192 in
set_option maxHeartbeats 1000000 in
/-- The list's fold at the result buffer is `out` of the arguments' launch contents. -/
theorem out_eq (V : Valuation τ sig (Elt F)) :
    after ops V (main_v11 : DevRef τ sig)
      = out (V (main_arg0 : DevRef τ sig)) (V (main_arg1 : DevRef τ sig)) (V (main_arg2 : DevRef τ sig)) (V (main_arg3 : DevRef τ sig)) := by
  after_results_simp
  simp only [TRef.toBuf, TRef.ofBuf]
  repeat rw [cast_eq]
  unfold out Cert.KernelIdeal.Agg.agg Cert.KernelIdeal.Agg.gathered Cert.KernelIdeal.Agg.inTable Cert.KernelIdeal.Agg.wrapped
    Cert.KernelIdeal.Agg.targets Cert.KernelIdeal.Agg.sources
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters: every weakly fair execution of @main terminates with the
    result buffer at `out` of the launched arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v11).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.Straight

end
-- ==== Proof.ReferenceValue.lean ====
/-
  The reference's result is the dense layer of the aggregate.

  At the ideal instance the host's matrix product of the aggregate with the weights is, at row `r` and column `s`,
  the sum over the 64 contracted positions of  aggregate (r, a) · W (a, s)  (the dimension numbers contract the left
  operand's columns with the right operand's rows); the bias, broadcast first to one row and then to every row,
  reads  b s  at every (r, s). Their sum is the dense layer, entry by entry.
-/
import proofs.«150528_j48627619726064_1_alg».proof.Proof.ReferenceRun
import proofs.«150528_j48627619726064_1_alg».proof.Proof.LibDot2
import proofs.«150528_j48627619726064_1_alg».proof.Proof.Linear
import Idealize.ShloMosaic.Lib.ValueIdx
import Idealize.ShloMosaic.Lib.Pipeline.Value
import Idealize.ShloMosaic.PureOps.Ideal.Laws

noncomputable section

namespace Cert.ReferenceIdeal.LinearValue

open Cert.ReferenceIdeal Cert.ReferenceIdeal.Gen Idealize.ShloMosaic Idealize.ShloMosaic.ValueIdx
open Cert.Linear

/-! ## The product's dimension numbers, coordinate by coordinate -/

theorem lhs_0 (j : S500000x64.Idx) (k : dot_S500000x64_S64x64_S500000x64_1_0_0_1_n_n.contr.Idx) :
    (dot_S500000x64_S64x64_S500000x64_1_0_0_1_n_n.lhsIdx j k 0 : ℕ) = j 0 := by
  simp [DotDims.lhsIdx, dot_S500000x64_S64x64_S500000x64_1_0_0_1_n_n]; rfl
theorem lhs_1 (j : S500000x64.Idx) (k : dot_S500000x64_S64x64_S500000x64_1_0_0_1_n_n.contr.Idx) :
    (dot_S500000x64_S64x64_S500000x64_1_0_0_1_n_n.lhsIdx j k 1 : ℕ) = k ⟨0, by decide⟩ := by
  simp [DotDims.lhsIdx, dot_S500000x64_S64x64_S500000x64_1_0_0_1_n_n]; rfl
theorem rhs_0 (j : S500000x64.Idx) (k : dot_S500000x64_S64x64_S500000x64_1_0_0_1_n_n.contr.Idx) :
    (dot_S500000x64_S64x64_S500000x64_1_0_0_1_n_n.rhsIdx j k 0 : ℕ) = k ⟨0, by decide⟩ := by
  simp [DotDims.rhsIdx, dot_S500000x64_S64x64_S500000x64_1_0_0_1_n_n]; rfl
theorem rhs_1 (j : S500000x64.Idx) (k : dot_S500000x64_S64x64_S500000x64_1_0_0_1_n_n.contr.Idx) :
    (dot_S500000x64_S64x64_S500000x64_1_0_0_1_n_n.rhsIdx j k 1 : ℕ) = j 1 := by
  simp [DotDims.rhsIdx, dot_S500000x64_S64x64_S500000x64_1_0_0_1_n_n]; rfl

/-- The product at row `r`, column `s`. -/
theorem product_ix2 (A : FVec Ideal S500000x64 .f32) (W : FVec Ideal S64x64 .f32) (r : Fin 500000) (s : Fin 64) :
    Host.dotGeneral (F := Ideal) dot_S500000x64_S64x64_S500000x64_1_0_0_1_n_n none A W (ix2 r s)
      = ∑ a : Fin 64, A (ix2 r a) * W (ix2 a s) := by
  simp only [Host.dotGeneral]
  rw [Ideal.dotGeneral_apply]
  exact Cert.Lib.Dot2.contraction_ix2 dot_S500000x64_S64x64_S500000x64_1_0_0_1_n_n rfl rfl
    (fun i k => lhs_0 i k) (fun i k => lhs_1 i k) (fun i k => rhs_0 i k) (fun i k => rhs_1 i k) A W r s

/-- The bias broadcast to one row and then to all rows reads the bias' entry in the column. -/
theorem biasRows_ix2 (b : S64.Idx → EReal) (r : Fin 500000) (s : Fin 64) :
    broadcastInDim S500000x64 ![0, 1] bcast_S1x64_S500000x64_0_1 (broadcastInDim S1x64 ![1] bcast_S64_S1x64_1 b) (ix2 r s) = b (ix1 s) := by
  rw [broadcastInDim_apply ![0, 1] bcast_S1x64_S500000x64_0_1 _ (ix2 r s) (ix2 (0 : Fin 1) s) (fun a => by
    match a with
    | ⟨0, _⟩ => rfl
    | ⟨1, _⟩ => rfl)]
  exact broadcastInDim_apply ![1] bcast_S64_S1x64_1 b (ix2 (0 : Fin 1) s) (ix1 s) (fun a => by
    match a with
    | ⟨0, _⟩ => rfl)

/-- The reference's result, of any four arguments, is the dense layer of their aggregate. -/
theorem out_eq_dense (x : S500000x64.Idx → EReal) (nb : (⟨S4000000x2, .i32⟩ : BufTy).Contents (Elt Ideal))
    (w : S64x64.Idx → EReal) (b : S64.Idx → EReal) :
    Straight.out (F := Ideal) x nb w b = dense (M := 500000) (Cert.KernelIdeal.Agg.agg (F := Ideal) x nb) w b := by
  funext i
  obtain ⟨r, s, rfl⟩ : ∃ (r : Fin 500000) (s : Fin 64), i = ix2 r s := ⟨i 0, i 1, eq_ix2 i⟩
  unfold Straight.out
  rw [addf_apply, product_ix2, biasRows_ix2, dense_ix2]

end Cert.ReferenceIdeal.LinearValue

end
-- ==== Proof.lean ====
/-
  Edge aggregation followed by a dense layer: the Pallas kernel against its jnp reference, over the extended reals.

  Both programs first gather, for each of 4000000 edges (target, source), row `source` of a 500000 × 64 table and
  add it into row `target` of an aggregate that starts at zero; the host operations that do this are the same in
  the two programs, operation for operation. They differ in the dense layer that follows. The reference multiplies
  the whole aggregate by the 64 × 64 weights and adds the bias to every row. The kernel walks the aggregate in 25
  blocks of 20000 rows; on each block it multiplies by the weights into a zero accumulator and adds the bias row
  (its change of the operands' format is the identity on extended reals). Entry (r, j) of either result is
      (∑ a : Fin 64, aggregate (r, a) · W (a, j)) + b j ,
  the same sum in the same order, so no law of the extended reals beyond reading each operation at an index is
  used, and the finiteness of the inputs is never opened.

  The frames of the two kernel programs are the generated ones. The reference's frame and value come from its @main
  read as a straight line of operations; the kernel's value from the generated blockwise run, one block at a time,
  the 25 blocks tiling the array. Nothing was rewritten by the idealization, so `preserves` is `True`.
-/
import proofs.«150528_j48627619726064_1_alg».proof.Defs
import proofs.«150528_j48627619726064_1_alg».proof.Proof.Gen.Kernel
import proofs.«150528_j48627619726064_1_alg».proof.Proof.Gen.Kernel.Skeleton
import proofs.«150528_j48627619726064_1_alg».proof.Proof.Gen.Kernel.Launch
import proofs.«150528_j48627619726064_1_alg».proof.Proof.Gen.Kernel.Points
import proofs.«150528_j48627619726064_1_alg».proof.Proof.Gen.Kernel.Frame
import proofs.«150528_j48627619726064_1_alg».proof.Proof.Gen.KernelIdeal
import proofs.«150528_j48627619726064_1_alg».proof.Proof.Gen.KernelIdeal.Skeleton
import proofs.«150528_j48627619726064_1_alg».proof.Proof.Gen.KernelIdeal.Launch
import proofs.«150528_j48627619726064_1_alg».proof.Proof.Gen.KernelIdeal.Points
import proofs.«150528_j48627619726064_1_alg».proof.Proof.Gen.KernelIdeal.Frame
import proofs.«150528_j48627619726064_1_alg».proof.Proof.Gen.ReferenceIdeal
import proofs.«150528_j48627619726064_1_alg».proof.Proof.Gen.Pre_finite_inputs
import proofs.«150528_j48627619726064_1_alg».proof.Proof.KernelRun
import proofs.«150528_j48627619726064_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2) (Cert.ReferenceIdeal.Straight.run (F := Ideal) m ρ)

/-- From memories agreeing on the four arguments both programs end with the dense layer of the arguments' aggregate
    in their result: the kernel's array block by block, the reference's as one product and one broadcast sum. -/
theorem algebraic : Cert.algebraic_KernelIdeal_ReferenceIdeal := by
  intro m ρ m' ρ' _ hagree
  refine ⟨_, Cert.KernelIdeal.LinearValue.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2]
  exact Cert.ReferenceIdeal.LinearValue.out_eq_dense _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
